-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x256 .f32) (main_arg1 : FVec F S10000x10000 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x256 : Shape := ⟨2, ![10000, 256]⟩
abbrev S10000x10000 : Shape := ⟨2, ![10000, 10000]⟩
abbrev S200x10000 : Shape := ⟨2, ![200, 10000]⟩
abbrev S400x256 : Shape := ⟨2, ![400, 256]⟩
abbrev S200x256 : Shape := ⟨2, ![200, 256]⟩

abbrev nBuf : Space → Nat
  | .hbm => 3
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x256, .f32⟩
  | .local _ .vmem, ⟨0, _⟩ => ⟨S10000x256, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S400x256, .f32⟩
  | .local _ .vmem, ⟨6, _⟩ => ⟨S400x256, .f32⟩
  | .local _ .vmem, ⟨7, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  inb_S400x256_S200x256_0_0 : ∀ a, (![0, 0] : Fin 2 → Nat) a + S200x256.size a ≤ S400x256.size a
  h_S200x256 : 0 < S200x256.numel
  inb_S400x256_S200x256_200_0 : ∀ a, (![200, 0] : Fin 2 → Nat) a + S200x256.size a ≤ S400x256.size a
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩

abbrev nBuf : Space → Nat
  | .hbm => 3
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x256_S10000x256_1_0_0_1_n_n_wf : DotDims.WF S10000x10000 S10000x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KFrame.Runs.lean ====
/-
  The matrix-product kernel's frame, first part: what every later module is stated over.

  The program is one pipelined region of 25 grid points. Window 0 is the whole feature matrix (fetched once), windows 1
  and 2 are the even and the odd 200-row stripe of ONE array, the adjacency matrix (so two windows read one array),
  window 3 is the 400-row output block. The body has one branch, taken exactly at the first point, which fills the
  bf16 scratch copy of the features; every point then multiplies its two stripes by the scratch copy.
  Here: the arrays as the region finds them, each window's block at a point, that an input's staging buffer holds its
  block at every point, the branch condition decided over the grid, and the names of the staging and scratch memrefs.
-/
import proofs.«115988_g532575945055_cont_9to1_m_783_6_alg».proof.Proof.Gen.Kernel.Launch
import proofs.«115988_g532575945055_cont_9to1_m_783_6_alg».proof.Proof.Gen.Kernel.Skeleton
import proofs.«115988_g532575945055_cont_9to1_m_783_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffer contents when the region is entered: @main does nothing before the region, so they are the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds the whole feature matrix at every point, although it is fetched only once:
    its block index never moves and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The even stripe's staging buffer holds rows 400t … 400t+199 of the adjacency matrix at point t. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The odd stripe's staging buffer holds rows 400t+200 … 400t+399 at point t. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The branch -/

/-- The condition of the body's one branch, from the grid coordinate: "this is program 0". -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## The memrefs the body is called on -/

/-- Each window's current staging memref at point `t`, as the pipeline passes it, and its wholeness. -/
abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x256 .f32 := win0_3.stage (cfg0.slots t 3)
abbrev hs0_3 (t : Fin cfg0.N) : (ms0_3 t).IsWhole := hstage0_3 ((cfg0.slots t 3).cast nbuf0_3)
/-- The bf16 scratch: a whole scoped buffer of the kernel's own. -/
abbrev scM0_0 : Memref sig .tc .vmem S10000x256 .bf16 := Memref.whole cc0_scratch0
/-- The scratch as a view: what it holds is stated through it. -/
abbrev VS0_0 : View sig .tc .vmem S10000x256 .bf16 := scM0_0.view
/-- One staging buffer of the output window, through which its contents are stated (the choice does not matter). -/
abbrev VO0_3 : View sig .tc .vmem S400x256 .f32 := (Memref.whole cc0_stg3_0 : Memref sig .tc .vmem S400x256 .f32).view

/-- The core's scoped buffers that the pipeline does not stage are the one scratch, owned at some contents. -/
theorem rest0_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.KFrame.RunA.lean ====
/-
  The body at the first grid point, where its branch is taken: on whole staging memrefs — the three inputs at their
  blocks, the output's and the scratch at anything — it runs to the end, leaves the inputs as they were, the scratch
  overwritten whole by the bf16 copy of the features, and the output buffer overwritten by two stores of 200 rows each.
  The lists of stores are found by running the body symbolically; what they contain is read later.
-/
import proofs.«115988_g532575945055_cont_9to1_m_783_6_alg».proof.Proof.KFrame.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer (`L3`) and in the scratch (`LS0`), last first, at the first point,
    with the proof that the body runs to any continuation that accepts the buffers so written. -/
noncomputable def kernelRun0_A (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) :
    Σ' (L3 : List (View.Piece (Elt F) S400x256 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg1 harg1 arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.Kernel.Hand

end
-- ==== Proof.KFrame.RunB.lean ====
/-
  The body at every later grid point, where its branch is not taken: on whole staging memrefs — the three inputs at
  their blocks, the scratch at what the first point left, the output's at anything — it runs to the end, leaves the
  inputs and the scratch as they were, and the output buffer overwritten by two stores of 200 rows each.
-/
import proofs.«115988_g532575945055_cont_9to1_m_783_6_alg».proof.Proof.KFrame.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer (`L3`), last first, at a point after the first, with the proof
    that the body runs to any continuation that accepts the buffers so written. -/
noncomputable def kernelRun0_B (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : Vec F S10000x256 .f32) (x1 : Vec F S200x10000 .f32) (x2 : Vec F S200x10000 .f32) (xs0 : Vec F S10000x256 .bf16) :
    { L3 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs0) -∗ K ⟨⟩))
          ⊢ wp frame (wpE (defs₀ (F := F)) Variants.none c none) E (cc0__mm_kernel i arg1 harg1 arg2 harg2 arg3 harg3 arg4 harg4 arg5 harg5) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; isplitr; · ipureintro; exact harg5.read_unread _
    iexact HS0

end Cert.Kernel.Hand

end
-- ==== Proof.KFrame.Data.lean ====
/-
  The matrix-product kernel's frame, second part: what the buffers hold.

  Per case of the branch, what the body's stores leave in the output buffer and in the scratch (the stores found by the
  symbolic runs, read back; they tile the buffer, so nothing of the earlier contents shows). Then point by point: the
  scratch holds, from the first point on, what the first point stored — no later point stores into it —, and the output
  buffer holds at each point what that point's two stores wrote. Then the pipeline's proof data: each input's buffer
  stays at its block, the output's is the above, the invariant is the scratch (at anything before the first point, at
  the first point's contents afterwards). The two windows on the adjacency matrix each hold HALF of the array's share:
  both only read it.
-/
import proofs.«115988_g532575945055_cont_9to1_m_783_6_alg».proof.Proof.KFrame.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output buffer tile it (rows 0–199 and 200–399). -/
theorem cover0_A_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) (y : S400x256.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S200x256.size (by sl_kernel_rfl) y

/-- What the first point leaves in the output buffer: its stores read back. -/
def out0_A_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) : Vec F S400x256 .f32 :=
  VO0_3.read (Elt F) (VO0_3.writes (Elt F) VO0_3.junk (kernelRun0_A c i arg1 harg1 arg2 harg2 arg3 harg3 arg4 harg4 arg5 harg5 hc0 x0 x1 x2).1)

/-- The first point's one store into the scratch covers it. -/
theorem scover0_A_0 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) (y : S10000x256.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S10000x256.size (by sl_kernel_rfl) y

/-- What the first point leaves in the scratch: its store read back. -/
def sout0_A_0 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) : Vec F S10000x256 .bf16 :=
  VS0_0.read (Elt F) (VS0_0.writes (Elt F) VS0_0.junk (kernelRun0_A c i arg1 harg1 arg2 harg2 arg3 harg3 arg4 harg4 arg5 harg5 hc0 x0 x1 x2).2.1)

/-- A later point's two stores into the output buffer tile it. -/
theorem cover0_B_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : Vec F S10000x256 .f32) (x1 : Vec F S200x10000 .f32) (x2 : Vec F S200x10000 .f32) (xs0 : Vec F S10000x256 .bf16) (y : S400x256.Idx) :
    ∃ pc ∈ (kernelRun0_B c i arg1 harg1 arg2 harg2 arg3 harg3 arg4 harg4 arg5 harg5 hc0 x0 x1 x2 xs0).1, y ∈ pc.1.set :=
  View.cover_of_tiledL (kernelRun0_B c i arg1 harg1 arg2 harg2 arg3 harg3 arg4 harg4 arg5 harg5 hc0 x0 x1 x2 xs0).1 S200x256.size (by sl_kernel_rfl) y

/-- What a later point leaves in the output buffer: its stores read back. -/
def out0_B_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : Vec F S10000x256 .f32) (x1 : Vec F S200x10000 .f32) (x2 : Vec F S200x10000 .f32) (xs0 : Vec F S10000x256 .bf16) : Vec F S400x256 .f32 :=
  VO0_3.read (Elt F) (VO0_3.writes (Elt F) VO0_3.junk (kernelRun0_B c i arg1 harg1 arg2 harg2 arg3 harg3 arg4 harg4 arg5 harg5 hc0 x0 x1 x2 xs0).1)

/-! ## Point by point -/

/-- The grid has a first point. -/
abbrev t0 : Fin cfg0.N := ⟨0, by decide⟩

/-- What the scratch holds after the point `t` at which the branch is taken (the first). -/
def scrA (c : Dev nD) (t : Fin cfg0.N) (h : t.val = 0) : Vec F S10000x256 .bf16 :=
  sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t)

/-- What the scratch holds from the first point on. -/
def scr (c : Dev nD) : Vec F S10000x256 .bf16 := scrA m c t0 rfl

/-- The output buffer after the first point. -/
def outA (c : Dev nD) (t : Fin cfg0.N) (h : t.val = 0) : Vec F S400x256 .f32 :=
  out0_A_3 c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t)

/-- The output buffer after a later point: computed from the scratch as the first point left it. -/
def outB (c : Dev nD) (t : Fin cfg0.N) (h : ¬t.val = 0) : Vec F S400x256 .f32 :=
  out0_B_3 c (grid0.coords t) (ms0_0 t) (hs0_0 t) (ms0_1 t) (hs0_1 t) (ms0_2 t) (hs0_2 t) (ms0_3 t) (hs0_3 t) scM0_0 (Memref.isWhole_whole _) (fun hc => h ((hcond0_0 t).mp hc)) (iblk m c 0 t) (iblk m c 1 t) (iblk m c 2 t) (scr m c)

/-- The output buffer after point `t`. -/
def outAt (c : Dev nD) (t : Fin cfg0.N) : Vec F S400x256 .f32 :=
  if h : t.val = 0 then outA m c t h else outB m c t h

theorem outAt_zero (c : Dev nD) (t : Fin cfg0.N) (h : t.val = 0) : outAt m c t = outA m c t h := dif_pos h
theorem outAt_pos (c : Dev nD) (t : Fin cfg0.N) (h : ¬t.val = 0) : outAt m c t = outB m c t h := dif_neg h

/-- The invariant between points: before the first, the scratch at anything; afterwards at what the first point stored. -/
def PhiS (c : Dev nD) : ℕ → sProp 𝕄
  | 0 => Pipeline.scopedRest spec0 c
  | _ + 1 => owns (c : Thread nD τ) scM0_0 fullShare (scr m c)

theorem PhiS_zero (c : Dev nD) : PhiS m c 0 = iprop(∃ d, owns (c : Thread nD τ) scM0_0 fullShare d) := rest0_eq c
theorem PhiS_succ (c : Dev nD) (n : ℕ) : PhiS m c (n + 1) = owns (c : Thread nD τ) scM0_0 fullShare (scr m c) := rfl
theorem PhiS_pos (c : Dev nD) (n : ℕ) (hz : n ≠ 0) : PhiS m c n = owns (c : Thread nD τ) scM0_0 fullShare (scr m c) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Hand

end
-- ==== Proof.KFrame.Body.lean ====
/-
  The matrix-product kernel's frame, third part: the body obligation.

  At every grid point the body, handed each window's staging buffer at what the pipeline left in it and the scratch as
  the invariant has it, runs to the end and hands the inputs' buffers back untouched, the output's buffer at that
  point's two stores, and the scratch at the first point's contents. At the first point the branch is taken and the
  scratch arrives at anything; at a later point it is not and the scratch arrives at the first point's contents.
-/
import proofs.«115988_g532575945055_cont_9to1_m_783_6_alg».proof.Proof.KFrame.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [PhiS_castSucc m c t]
  by_cases hz : t.val = 0
  · obtain rfl : t = t0 := Fin.ext hz
    rw [outAt_zero m c t0 rfl]
    unfold outA out0_A_3 scr scrA sout0_A_0
    rw [show PhiS m c (t0 : Fin cfg0.N).val = PhiS m c 0 from rfl, PhiS_zero]
    iintro ⟨HS0, Ho, ⟨%d0, H0⟩, ⟨%d1, H1⟩, ⟨%d2, H2⟩, ⟨%d3, H3⟩⟩
    iapply ((kernelRun0_A c (grid0.coords t0) (ms0_0 t0) (hs0_0 t0) (ms0_1 t0) (hs0_1 t0) (ms0_2 t0) (hs0_2 t0) (ms0_3 t0) (hs0_3 t0) scM0_0 (Memref.isWhole_whole _) ((hcond0_0 t0).mpr rfl) (iblk m c 0 t0) (iblk m c 1 t0) (iblk m c 2 t0)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0]
    · unfold owns; iexists _; isplitr
      swap; · iexact HS0
      ipureintro; exact View.read_writes_of_cover _ _ _ _ _ (scover0_A_0 c (grid0.coords t0) (ms0_0 t0) (hs0_0 t0) (ms0_1 t0) (hs0_1 t0) (ms0_2 t0) (hs0_2 t0) (ms0_3 t0) (hs0_3 t0) scM0_0 (Memref.isWhole_whole _) ((hcond0_0 t0).mpr rfl) (iblk m c 0 t0) (iblk m c 1 t0) (iblk m c 2 t0))
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c (grid0.coords t0) (ms0_0 t0) (hs0_0 t0) (ms0_1 t0) (hs0_1 t0) (ms0_2 t0) (hs0_2 t0) (ms0_3 t0) (hs0_3 t0) scM0_0 (Memref.isWhole_whole _) ((hcond0_0 t0).mpr rfl) (iblk m c 0 t0) (iblk m c 1 t0) (iblk m c 2 t0))
  · rw [outAt_pos m c t hz]
    unfold outB out0_B_3
    rw [PhiS_pos m c _ hz]
    iintro ⟨HS0, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) (fun hc => hz ((hcond0_0 t).mp hc)) (iblk m c 0 t) (iblk m c 1 t) (iblk m c 2 t) (scr m c)).2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, HS0⟩
    isplitl [HS0]; · iexact HS0
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) (fun hc => hz ((hcond0_0 t).mp hc)) (iblk m c 0 t) (iblk m c 1 t) (iblk m c 2 t) (scr m c))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrame.Run.lean ====
/-
  The matrix-product kernel's frame, last part: the launch and the frame claim.

  The launch theorem for windows that may share arrays wants to be told how the DISTINCT buffers behind the windows'
  arrays, each held whole, make the four windows' arrays: the feature matrix and the output go to their one window each,
  and the adjacency matrix's points-to is halved between its two windows, which both only read it. The scratch enters the
  invariant at anything and is given back at anything. The frame claim then reads the two argument arrays off the run's
  post: an input window's array ends as it began.
-/
import proofs.«115988_g532575945055_cont_9to1_m_783_6_alg».proof.Proof.KFrame.Body
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A separating conjunction over a set with one more element, in the form the proof mode destructs. -/
theorem bigSep_insert' {I : Type} [DecidableEq I] {s : Finset I} {i : I} (hi : i ∉ s) (Φ : I → sProp 𝕄) :
    bigSep (insert i s) Φ = iprop(Φ i ∗ bigSep s Φ) := BI.bigSep_insert hi

/-- Each window's share of its array: the features and the output whole, the adjacency matrix a half per stripe window. -/
theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
/-- Before any write-back each window's array holds its entry contents. -/
theorem arrAt_zero (c : Dev nD) (w : Fin cfg0.W) : (dats m 0 c).arrAt w 0 = V m c (Pipeline.arrRef spec0 w) := rfl

/-- The buffers behind the windows' arrays, each whole, are the windows' arrays at their shares: the adjacency
    matrix's share is split in two halves, one per stripe window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show Finset.univ.image (Pipeline.arrRef spec0) = {main_arg0, main_arg1, main_v0} from by decide]
  rw [bigSep_insert' (by decide), bigSep_insert' (by decide), bigSep_singleton, bigSep_W0]
  simp only [share0, share1, share2, share3, arrAt_zero]
  rw [(arr_whole0 0).set_eq_univ, (arr_whole0 1).set_eq_univ, (arr_whole0 3).set_eq_univ]
  iintro ⟨H0, H1, H3⟩
  ihave H1 := (pointsTo_share (PosShare.mem_left_op_right fullShare)).1 $$ H1
  icases H1 with ⟨H1a, H1b⟩
  isplitl [H0]; · iexact H0
  isplitl [H1a]; · iexact H1a
  isplitl [H1b]; · iexact H1b
  iexact H3

/-- At the compiled mesh, for any float values, from any memory with zero counters: every weakly fair execution of
    @main terminates, and every final state has each window's array at what the library computes from the proof data. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = PhiS m c (24 + 1) from rfl, PhiS_succ, rest0_eq]
      iintro H; isplitr; · iempintro
      iexists _; iexact H)
    (QY := fun _ _ => True)
    (hY := fun c s' => by
      iintro ⟨-, -, HSI⟩; imodintro
      isplitr; · ipureintro; trivial
      iexact HSI)
    (hQ := fun _ h c w => (h c).1 w)

/-- The frame: every weakly fair execution terminates, and the feature matrix and the adjacency matrix end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 1).trans (((dats m 0 c).arrAt_in 1 rfl _).trans (A_eq m c 1))⟩) (run_main m ρ)

end Cert.Kernel.Hand

end
-- ==== Proof.KIFrame.Runs.lean ====
/-
  The matrix-product kernel's frame, first part: what every later module is stated over.

  The program is one pipelined region of 25 grid points. Window 0 is the whole feature matrix (fetched once), windows 1
  and 2 are the even and the odd 200-row stripe of ONE array, the adjacency matrix (so two windows read one array),
  window 3 is the 400-row output block. The body has one branch, taken exactly at the first point, which fills the
  bf16 scratch copy of the features; every point then multiplies its two stripes by the scratch copy.
  Here: the arrays as the region finds them, each window's block at a point, that an input's staging buffer holds its
  block at every point, the branch condition decided over the grid, and the names of the staging and scratch memrefs.
-/
import proofs.«115988_g532575945055_cont_9to1_m_783_6_alg».proof.Proof.Gen.KernelIdeal.Launch
import proofs.«115988_g532575945055_cont_9to1_m_783_6_alg».proof.Proof.Gen.KernelIdeal.Skeleton
import proofs.«115988_g532575945055_cont_9to1_m_783_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffer contents when the region is entered: @main does nothing before the region, so they are the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds the whole feature matrix at every point, although it is fetched only once:
    its block index never moves and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The even stripe's staging buffer holds rows 400t … 400t+199 of the adjacency matrix at point t. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The odd stripe's staging buffer holds rows 400t+200 … 400t+399 at point t. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The branch -/

/-- The condition of the body's one branch, from the grid coordinate: "this is program 0". -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## The memrefs the body is called on -/

/-- Each window's current staging memref at point `t`, as the pipeline passes it, and its wholeness. -/
abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x256 .f32 := win0_3.stage (cfg0.slots t 3)
abbrev hs0_3 (t : Fin cfg0.N) : (ms0_3 t).IsWhole := hstage0_3 ((cfg0.slots t 3).cast nbuf0_3)
/-- The bf16 scratch: a whole scoped buffer of the kernel's own. -/
abbrev scM0_0 : Memref sig .tc .vmem S10000x256 .bf16 := Memref.whole cc0_scratch0
/-- The scratch as a view: what it holds is stated through it. -/
abbrev VS0_0 : View sig .tc .vmem S10000x256 .bf16 := scM0_0.view
/-- One staging buffer of the output window, through which its contents are stated (the choice does not matter). -/
abbrev VO0_3 : View sig .tc .vmem S400x256 .f32 := (Memref.whole cc0_stg3_0 : Memref sig .tc .vmem S400x256 .f32).view

/-- The core's scoped buffers that the pipeline does not stage are the one scratch, owned at some contents. -/
theorem rest0_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KIFrame.RunA.lean ====
/-
  The body at the first grid point, where its branch is taken: on whole staging memrefs — the three inputs at their
  blocks, the output's and the scratch at anything — it runs to the end, leaves the inputs as they were, the scratch
  overwritten whole by the bf16 copy of the features, and the output buffer overwritten by two stores of 200 rows each.
  The lists of stores are found by running the body symbolically; what they contain is read later.
-/
import proofs.«115988_g532575945055_cont_9to1_m_783_6_alg».proof.Proof.KIFrame.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer (`L3`) and in the scratch (`LS0`), last first, at the first point,
    with the proof that the body runs to any continuation that accepts the buffers so written. -/
noncomputable def kernelRun0_A (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) :
    Σ' (L3 : List (View.Piece (Elt F) S400x256 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg1 harg1 arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.KernelIdeal.Hand

end
-- ==== Proof.KIFrame.RunB.lean ====
/-
  The body at every later grid point, where its branch is not taken: on whole staging memrefs — the three inputs at
  their blocks, the scratch at what the first point left, the output's at anything — it runs to the end, leaves the
  inputs and the scratch as they were, and the output buffer overwritten by two stores of 200 rows each.
-/
import proofs.«115988_g532575945055_cont_9to1_m_783_6_alg».proof.Proof.KIFrame.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output buffer (`L3`), last first, at a point after the first, with the proof
    that the body runs to any continuation that accepts the buffers so written. -/
noncomputable def kernelRun0_B (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : Vec F S10000x256 .f32) (x1 : Vec F S200x10000 .f32) (x2 : Vec F S200x10000 .f32) (xs0 : Vec F S10000x256 .bf16) :
    { L3 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs0) -∗ K ⟨⟩))
          ⊢ wp frame (wpE (defs₀ (F := F)) Variants.none c none) E (cc0__mm_kernel i arg1 harg1 arg2 harg2 arg3 harg3 arg4 harg4 arg5 harg5) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; isplitr; · ipureintro; exact harg5.read_unread _
    iexact HS0

end Cert.KernelIdeal.Hand

end
-- ==== Proof.KIFrame.Data.lean ====
/-
  The matrix-product kernel's frame, second part: what the buffers hold.

  Per case of the branch, what the body's stores leave in the output buffer and in the scratch (the stores found by the
  symbolic runs, read back; they tile the buffer, so nothing of the earlier contents shows). Then point by point: the
  scratch holds, from the first point on, what the first point stored — no later point stores into it —, and the output
  buffer holds at each point what that point's two stores wrote. Then the pipeline's proof data: each input's buffer
  stays at its block, the output's is the above, the invariant is the scratch (at anything before the first point, at
  the first point's contents afterwards). The two windows on the adjacency matrix each hold HALF of the array's share:
  both only read it.
-/
import proofs.«115988_g532575945055_cont_9to1_m_783_6_alg».proof.Proof.KIFrame.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output buffer tile it (rows 0–199 and 200–399). -/
theorem cover0_A_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) (y : S400x256.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S200x256.size (by sl_kernel_rfl) y

/-- What the first point leaves in the output buffer: its stores read back. -/
def out0_A_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) : Vec F S400x256 .f32 :=
  VO0_3.read (Elt F) (VO0_3.writes (Elt F) VO0_3.junk (kernelRun0_A c i arg1 harg1 arg2 harg2 arg3 harg3 arg4 harg4 arg5 harg5 hc0 x0 x1 x2).1)

/-- The first point's one store into the scratch covers it. -/
theorem scover0_A_0 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) (y : S10000x256.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S10000x256.size (by sl_kernel_rfl) y

/-- What the first point leaves in the scratch: its store read back. -/
def sout0_A_0 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : Vec F S10000x256 .f32) (x1 : Vec F S200x10000 .f32) (x2 : Vec F S200x10000 .f32) : Vec F S10000x256 .bf16 :=
  VS0_0.read (Elt F) (VS0_0.writes (Elt F) VS0_0.junk (kernelRun0_A c i arg1 harg1 arg2 harg2 arg3 harg3 arg4 harg4 arg5 harg5 hc0 x0 x1 x2).2.1)

/-- A later point's two stores into the output buffer tile it. -/
theorem cover0_B_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : Vec F S10000x256 .f32) (x1 : Vec F S200x10000 .f32) (x2 : Vec F S200x10000 .f32) (xs0 : Vec F S10000x256 .bf16) (y : S400x256.Idx) :
    ∃ pc ∈ (kernelRun0_B c i arg1 harg1 arg2 harg2 arg3 harg3 arg4 harg4 arg5 harg5 hc0 x0 x1 x2 xs0).1, y ∈ pc.1.set :=
  View.cover_of_tiledL (kernelRun0_B c i arg1 harg1 arg2 harg2 arg3 harg3 arg4 harg4 arg5 harg5 hc0 x0 x1 x2 xs0).1 S200x256.size (by sl_kernel_rfl) y

/-- What a later point leaves in the output buffer: its stores read back. -/
def out0_B_3 (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : Vec F S10000x256 .f32) (x1 : Vec F S200x10000 .f32) (x2 : Vec F S200x10000 .f32) (xs0 : Vec F S10000x256 .bf16) : Vec F S400x256 .f32 :=
  VO0_3.read (Elt F) (VO0_3.writes (Elt F) VO0_3.junk (kernelRun0_B c i arg1 harg1 arg2 harg2 arg3 harg3 arg4 harg4 arg5 harg5 hc0 x0 x1 x2 xs0).1)

/-! ## Point by point -/

/-- The grid has a first point. -/
abbrev t0 : Fin cfg0.N := ⟨0, by decide⟩

/-- What the scratch holds after the point `t` at which the branch is taken (the first). -/
def scrA (c : Dev nD) (t : Fin cfg0.N) (h : t.val = 0) : Vec F S10000x256 .bf16 :=
  sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t)

/-- What the scratch holds from the first point on. -/
def scr (c : Dev nD) : Vec F S10000x256 .bf16 := scrA m c t0 rfl

/-- The output buffer after the first point. -/
def outA (c : Dev nD) (t : Fin cfg0.N) (h : t.val = 0) : Vec F S400x256 .f32 :=
  out0_A_3 c (grid0.coords t) (ms0_0 t) (hs0_0 t) (ms0_1 t) (hs0_1 t) (ms0_2 t) (hs0_2 t) (ms0_3 t) (hs0_3 t) scM0_0 (Memref.isWhole_whole _) ((hcond0_0 t).mpr h) (iblk m c 0 t) (iblk m c 1 t) (iblk m c 2 t)

/-- The output buffer after a later point: computed from the scratch as the first point left it. -/
def outB (c : Dev nD) (t : Fin cfg0.N) (h : ¬t.val = 0) : Vec F S400x256 .f32 :=
  out0_B_3 c (grid0.coords t) (ms0_0 t) (hs0_0 t) (ms0_1 t) (hs0_1 t) (ms0_2 t) (hs0_2 t) (ms0_3 t) (hs0_3 t) scM0_0 (Memref.isWhole_whole _) (fun hc => h ((hcond0_0 t).mp hc)) (iblk m c 0 t) (iblk m c 1 t) (iblk m c 2 t) (scr m c)

/-- The output buffer after point `t`. -/
def outAt (c : Dev nD) (t : Fin cfg0.N) : Vec F S400x256 .f32 :=
  if h : t.val = 0 then outA m c t h else outB m c t h

theorem outAt_zero (c : Dev nD) (t : Fin cfg0.N) (h : t.val = 0) : outAt m c t = outA m c t h := dif_pos h
theorem outAt_pos (c : Dev nD) (t : Fin cfg0.N) (h : ¬t.val = 0) : outAt m c t = outB m c t h := dif_neg h

/-- The invariant between points: before the first, the scratch at anything; afterwards at what the first point stored. -/
def PhiS (c : Dev nD) : ℕ → sProp 𝕄
  | 0 => Pipeline.scopedRest spec0 c
  | _ + 1 => owns (c : Thread nD τ) scM0_0 fullShare (scr m c)

theorem PhiS_zero (c : Dev nD) : PhiS m c 0 = iprop(∃ d, owns (c : Thread nD τ) scM0_0 fullShare d) := rest0_eq c
theorem PhiS_succ (c : Dev nD) (n : ℕ) : PhiS m c (n + 1) = owns (c : Thread nD τ) scM0_0 fullShare (scr m c) := rfl
theorem PhiS_pos (c : Dev nD) (n : ℕ) (hz : n ≠ 0) : PhiS m c n = owns (c : Thread nD τ) scM0_0 fullShare (scr m c) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Hand

end
-- ==== Proof.KIFrame.Body.lean ====
/-
  The matrix-product kernel's frame, third part: the body obligation.

  At every grid point the body, handed each window's staging buffer at what the pipeline left in it and the scratch as
  the invariant has it, runs to the end and hands the inputs' buffers back untouched, the output's buffer at that
  point's two stores, and the scratch at the first point's contents. At the first point the branch is taken and the
  scratch arrives at anything; at a later point it is not and the scratch arrives at the first point's contents.
-/
import proofs.«115988_g532575945055_cont_9to1_m_783_6_alg».proof.Proof.KIFrame.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [PhiS_castSucc m c t]
  by_cases hz : t.val = 0
  · obtain rfl : t = t0 := Fin.ext hz
    rw [outAt_zero m c t0 rfl]
    unfold outA out0_A_3 scr scrA sout0_A_0
    rw [show PhiS m c (t0 : Fin cfg0.N).val = PhiS m c 0 from rfl, PhiS_zero]
    iintro ⟨HS0, Ho, ⟨%d0, H0⟩, ⟨%d1, H1⟩, ⟨%d2, H2⟩, ⟨%d3, H3⟩⟩
    iapply ((kernelRun0_A c (grid0.coords t0) (ms0_0 t0) (hs0_0 t0) (ms0_1 t0) (hs0_1 t0) (ms0_2 t0) (hs0_2 t0) (ms0_3 t0) (hs0_3 t0) scM0_0 (Memref.isWhole_whole _) ((hcond0_0 t0).mpr rfl) (iblk m c 0 t0) (iblk m c 1 t0) (iblk m c 2 t0)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0]
    · unfold owns; iexists _; isplitr
      swap; · iexact HS0
      ipureintro; exact View.read_writes_of_cover _ _ _ _ _ (scover0_A_0 c (grid0.coords t0) (ms0_0 t0) (hs0_0 t0) (ms0_1 t0) (hs0_1 t0) (ms0_2 t0) (hs0_2 t0) (ms0_3 t0) (hs0_3 t0) scM0_0 (Memref.isWhole_whole _) ((hcond0_0 t0).mpr rfl) (iblk m c 0 t0) (iblk m c 1 t0) (iblk m c 2 t0))
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c (grid0.coords t0) (ms0_0 t0) (hs0_0 t0) (ms0_1 t0) (hs0_1 t0) (ms0_2 t0) (hs0_2 t0) (ms0_3 t0) (hs0_3 t0) scM0_0 (Memref.isWhole_whole _) ((hcond0_0 t0).mpr rfl) (iblk m c 0 t0) (iblk m c 1 t0) (iblk m c 2 t0))
  · rw [outAt_pos m c t hz]
    unfold outB out0_B_3
    rw [PhiS_pos m c _ hz]
    iintro ⟨HS0, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) (fun hc => hz ((hcond0_0 t).mp hc)) (iblk m c 0 t) (iblk m c 1 t) (iblk m c 2 t) (scr m c)).2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, HS0⟩
    isplitl [HS0]; · iexact HS0
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) (fun hc => hz ((hcond0_0 t).mp hc)) (iblk m c 0 t) (iblk m c 1 t) (iblk m c 2 t) (scr m c))

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrame.Run.lean ====
/-
  The matrix-product kernel's frame, last part: the launch and the frame claim.

  The launch theorem for windows that may share arrays wants to be told how the DISTINCT buffers behind the windows'
  arrays, each held whole, make the four windows' arrays: the feature matrix and the output go to their one window each,
  and the adjacency matrix's points-to is halved between its two windows, which both only read it. The scratch enters the
  invariant at anything and is given back at anything. The frame claim then reads the two argument arrays off the run's
  post: an input window's array ends as it began.
-/
import proofs.«115988_g532575945055_cont_9to1_m_783_6_alg».proof.Proof.KIFrame.Body
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A separating conjunction over a set with one more element, in the form the proof mode destructs. -/
theorem bigSep_insert' {I : Type} [DecidableEq I] {s : Finset I} {i : I} (hi : i ∉ s) (Φ : I → sProp 𝕄) :
    bigSep (insert i s) Φ = iprop(Φ i ∗ bigSep s Φ) := BI.bigSep_insert hi

/-- Each window's share of its array: the features and the output whole, the adjacency matrix a half per stripe window. -/
theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
/-- Before any write-back each window's array holds its entry contents. -/
theorem arrAt_zero (c : Dev nD) (w : Fin cfg0.W) : (dats m 0 c).arrAt w 0 = V m c (Pipeline.arrRef spec0 w) := rfl

/-- The buffers behind the windows' arrays, each whole, are the windows' arrays at their shares: the adjacency
    matrix's share is split in two halves, one per stripe window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [show Finset.univ.image (Pipeline.arrRef spec0) = {main_arg0, main_arg1, main_v0} from by decide]
  rw [bigSep_insert' (by decide), bigSep_insert' (by decide), bigSep_singleton, bigSep_W0]
  simp only [share0, share1, share2, share3, arrAt_zero]
  rw [(arr_whole0 0).set_eq_univ, (arr_whole0 1).set_eq_univ, (arr_whole0 3).set_eq_univ]
  iintro ⟨H0, H1, H3⟩
  ihave H1 := (pointsTo_share (PosShare.mem_left_op_right fullShare)).1 $$ H1
  icases H1 with ⟨H1a, H1b⟩
  isplitl [H0]; · iexact H0
  isplitl [H1a]; · iexact H1a
  isplitl [H1b]; · iexact H1b
  iexact H3

/-- At the compiled mesh, for any float values, from any memory with zero counters: every weakly fair execution of
    @main terminates, and every final state has each window's array at what the library computes from the proof data. -/
theorem run_main : θ_run defs (onTc (τ := τ) (main (F := F))) (s₀ m ρ)
    (fun r => ∀ (c : Dev nD) (w : Fin cfg0.W), r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = PhiS m c (24 + 1) from rfl, PhiS_succ, rest0_eq]
      iintro H; isplitr; · iempintro
      iexists _; iexact H)
    (QY := fun _ _ => True)
    (hY := fun c s' => by
      iintro ⟨-, -, HSI⟩; imodintro
      isplitr; · ipureintro; trivial
      iexact HSI)
    (hQ := fun _ h c w => (h c).1 w)

/-- The frame: every weakly fair execution terminates, and the feature matrix and the adjacency matrix end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 1).trans (((dats m 0 c).arrAt_in 1 rfl _).trans (A_eq m c 1))⟩) (run_main m ρ)

end Cert.KernelIdeal.Hand

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Payload.lean ====
/-
  The body's three payloads at the extended reals. A change of float format is the identity there, so the scratch copy
  of the features IS the features, and each half of the output block is a plain matrix product into the zero
  accumulator: entry (p, q) is  Σ_k stripe(p, k) · scratch(k, q).
-/
import proofs.«115988_g532575945055_cont_9to1_m_783_6_alg».proof.Proof.Gen.KernelIdeal.Skeleton
import proofs.«115988_g532575945055_cont_9to1_m_783_6_alg».proof.Proof.LibPlainDot
import Idealize.ShloMosaic.Lib.Pipeline.Value

noncomputable section

namespace Cert.KernelIdeal.Payload

open Cert.KernelIdeal Cert.KernelIdeal.Gen Idealize.ShloMosaic Idealize.ShloMosaic.ValueIdx

/-- The scratch copy: the bf16 truncation and the trivial reshape are both the identity. -/
theorem pay1_eq (v12 : S10000x256.Idx → EReal) : (k0_pay1 (F := Ideal) v12 : S10000x256.Idx → EReal) = v12 := by
  unfold k0_pay1
  exact shapeCast_self _ _

/-- The upper half of the output block: the even stripe times the scratch copy. -/
theorem pay2_apply (v3 : S10000x256.Idx → EReal) (v4 : S200x10000.Idx → EReal) (p : Fin 200) (q : Fin 256) :
    (k0_pay2 (F := Ideal) v3 v4 : S200x256.Idx → EReal) (ix2 p q) = ∑ k : Fin 10000, v4 (ix2 p k) * v3 (ix2 k q) := by
  unfold k0_pay2
  exact Cert.LibPlainDot.matmul_plain_zero (M := 200) (K := 10000) (N := 256) (φ₁ := .bf16) (φ₂ := .bf16) none v4 v3 (ix2 p q)

/-- The lower half: the odd stripe times the scratch copy. -/
theorem pay3_apply (v3 : S10000x256.Idx → EReal) (v8 : S200x10000.Idx → EReal) (p : Fin 200) (q : Fin 256) :
    (k0_pay3 (F := Ideal) v3 v8 : S200x256.Idx → EReal) (ix2 p q) = ∑ k : Fin 10000, v8 (ix2 p k) * v3 (ix2 k q) := by
  unfold k0_pay3
  exact Cert.LibPlainDot.matmul_plain_zero (M := 200) (K := 10000) (N := 256) (φ₁ := .bf16) (φ₂ := .bf16) none v8 v3 (ix2 p q)

end Cert.KernelIdeal.Payload

end
-- ==== Proof.Spec.lean ====
/-
  The specification: the product  A · X  of the 10000×10000 adjacency matrix with the 10000×256 feature matrix, as ONE
  function of the two argument arrays, index by index over the extended reals:  (A · X)(r, q) = Σ_k A(r, k) · X(k, q).
  The reference's one operation, a `dot_general` contracting A's columns with X's rows, is this function.
-/
import proofs.«115988_g532575945055_cont_9to1_m_783_6_alg».proof.Proof.Gen.ReferenceIdeal.Read
import Idealize.ShloMosaic.Lib.ValueIdx

noncomputable section

namespace Cert.Spec

open Idealize.ShloMosaic Idealize.ShloMosaic.ValueIdx

/-- The product at an index: row `i 0` of the adjacency matrix against column `i 1` of the features. -/
def prod (X : (⟨2, ![10000, 256]⟩ : Shape).Idx → EReal) (A : (⟨2, ![10000, 10000]⟩ : Shape).Idx → EReal) :
    (⟨2, ![10000, 256]⟩ : Shape).Idx → EReal :=
  fun i => ∑ k : Fin 10000, A (ix2 (i 0) k) * X (ix2 k (i 1))

theorem prod_apply (X : (⟨2, ![10000, 256]⟩ : Shape).Idx → EReal) (A : (⟨2, ![10000, 10000]⟩ : Shape).Idx → EReal)
    (r : Fin 10000) (q : Fin 256) : prod X A (ix2 r q) = ∑ k : Fin 10000, A (ix2 r k) * X (ix2 k q) := rfl

open Cert.ReferenceIdeal Cert.ReferenceIdeal.Read in
/-- The reference's result term is the product. -/
theorem ref_eq (x0 : (⟨S10000x256, .f32⟩ : BufTy).Contents (Elt Ideal)) (x1 : (⟨S10000x10000, .f32⟩ : BufTy).Contents (Elt Ideal)) :
    val_main_v0 (F := Ideal) x0 x1 = prod x0 x1 := by
  funext i
  rw [val_main_v0_apply]
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

end Cert.Spec

end
-- ==== Proof.KIValue.lean ====
/-
  What the idealized kernel computes: its result array ends holding the product  A · X.

  Read at the extended reals. The scratch, filled at the first grid point with the bf16 copy of the features, IS the
  feature matrix X (a change of format is the identity). At grid point t the output buffer's upper 200 rows are the even
  stripe (rows 400t … 400t+199 of A) times X and its lower 200 rows the odd stripe (rows 400t+200 … 400t+399) times X:
  so the whole 400-row buffer is rows 400t … 400t+399 of  A · X, which is exactly the block of the result array that
  point t writes back. The 25 blocks tile the 10000 rows, so the array ends at  A · X.
-/
import proofs.«115988_g532575945055_cont_9to1_m_783_6_alg».proof.Proof.KIFrame.Data
import proofs.«115988_g532575945055_cont_9to1_m_783_6_alg».proof.Proof.Payload
import proofs.«115988_g532575945055_cont_9to1_m_783_6_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.HandValue

open Cert.KernelIdeal Cert.KernelIdeal.Gen Cert.KernelIdeal.Hand
open Idealize.ShloMosaic.ValueIdx

variable (m : (ℓ : Loc nD τ sig) → Buf (Elt Ideal) ℓ)

theorem hz : (![0, 0] : Fin 2 → Nat) = fun _ => 0 := funext fun a => by fin_cases a <;> rfl

/-- The feature matrix and the adjacency matrix as core `c` holds them at launch. -/
abbrev Xa (c : Dev nD) : S10000x256.Idx → EReal := m ((c : Thread nD τ).loc main_arg0)
abbrev Aa (c : Dev nD) : S10000x10000.Idx → EReal := m ((c : Thread nD τ).loc main_arg1)

/-! ## The windows' blocks at an index -/

/-- The printed index maps over the grid: the features' block never moves; at point t the stripes are blocks 2t and
    2t+1 of 200 rows, the output block is block t of 400 rows. -/
theorem idx_facts : ∀ t : Fin cfg0.N,
    win0_0.index t (0 : Fin 2) = 0 ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := lt_of_lt_of_eq t.isLt N_0

/-- The features' block is the whole matrix. -/
theorem iblk0_apply (c : Dev nD) (t : Fin cfg0.N) (k : Fin 10000) (q : Fin 256) :
    (iblk m c 0 t : S10000x256.Idx → EReal) (ix2 k q) = Xa m c (ix2 k q) := by
  obtain ⟨e0, e1, -⟩ := idx_facts t
  show V m c main_arg0 (((cfg0.win 0).blk t).view.emb (ix2 k q)) = V m c main_arg0 (ix2 k q)
  refine congrArg (V m c main_arg0) (funext fun a => Fin.ext ?_)
  match a with
  | ⟨0, _⟩ => show win0_0.index t (0 : Fin 2) * 10000 + 1 * k.val = k.val; omega
  | ⟨1, _⟩ => show win0_0.index t (1 : Fin 2) * 256 + 1 * q.val = q.val; omega

/-- Row p of the even stripe at point t is row 400t + p of the adjacency matrix. -/
theorem iblk1_apply (c : Dev nD) (t : Fin cfg0.N) (p : Fin 200) (k : Fin 10000) (h : 400 * t.val + p.val < 10000) :
    (iblk m c 1 t : S200x10000.Idx → EReal) (ix2 p k) = Aa m c (ix2 ⟨400 * t.val + p.val, h⟩ k) := by
  obtain ⟨-, -, e0, e1, -⟩ := idx_facts t
  show V m c main_arg1 (((cfg0.win 1).blk t).view.emb (ix2 p k)) = V m c main_arg1 (ix2 ⟨400 * t.val + p.val, h⟩ k)
  refine congrArg (V m c main_arg1) (funext fun a => Fin.ext ?_)
  match a with
  | ⟨0, _⟩ => show win0_1.index t (0 : Fin 2) * 200 + 1 * p.val = 400 * t.val + p.val; omega
  | ⟨1, _⟩ => show win0_1.index t (1 : Fin 2) * 10000 + 1 * k.val = k.val; omega

/-- Row p of the odd stripe at point t is row 400t + 200 + p. -/
theorem iblk2_apply (c : Dev nD) (t : Fin cfg0.N) (p : Fin 200) (k : Fin 10000) (h : 400 * t.val + (200 + p.val) < 10000) :
    (iblk m c 2 t : S200x10000.Idx → EReal) (ix2 p k) = Aa m c (ix2 ⟨400 * t.val + (200 + p.val), h⟩ k) := by
  obtain ⟨-, -, -, -, e0, e1, -⟩ := idx_facts t
  show V m c main_arg1 (((cfg0.win 2).blk t).view.emb (ix2 p k)) = V m c main_arg1 (ix2 ⟨400 * t.val + (200 + p.val), h⟩ k)
  refine congrArg (V m c main_arg1) (funext fun a => Fin.ext ?_)
  match a with
  | ⟨0, _⟩ => show win0_2.index t (0 : Fin 2) * 200 + 1 * p.val = 400 * t.val + (200 + p.val); omega
  | ⟨1, _⟩ => show win0_2.index t (1 : Fin 2) * 10000 + 1 * k.val = k.val; omega

/-! ## What the cases' stores hold -/

/-- The first point's store into the scratch leaves the features there. -/
theorem sout_A (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : S10000x256.Idx → EReal) (x1 x2 : S200x10000.Idx → EReal) :
    (sout0_A_0 (F := Ideal) c i arg1 harg1 arg2 harg2 arg3 harg3 arg4 harg4 arg5 harg5 hc0 x0 x1 x2 : S10000x256.Idx → EReal) = x0 := by
  unfold sout0_A_0
  rw [View.read_writes_eq_canon _ _ _ (scover0_A_0 (F := Ideal) c i arg1 harg1 arg2 harg2 arg3 harg3 arg4 harg4 arg5 harg5 hc0 x0 x1 x2)]
  unfold kernelRun0_A
  dsimp only
  sl_unfold_words
  rw [View.canon_unit_zero hz]
  simp only [View.readAt_eq_ld, harg1.read_unread, View.ld_unit_zero (S := S10000x256) hz]
  exact Payload.pay1_eq x0

/-- The first point's two stores leave, in the output buffer, any function `G` whose upper 200 rows are the even
    stripe times the features and whose lower 200 rows are the odd stripe times the features. -/
theorem out_A_apply (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : cond0_0 i)
    (x0 : S10000x256.Idx → EReal) (x1 x2 : S200x10000.Idx → EReal) (G : S400x256.Idx → EReal)
    (h1 : ∀ (p : Fin 200) (q : Fin 256), G (ix2 ⟨p.val, by omega⟩ q) = ∑ k : Fin 10000, x1 (ix2 p k) * x0 (ix2 k q))
    (h2 : ∀ (p : Fin 200) (q : Fin 256), G (ix2 ⟨200 + p.val, by omega⟩ q) = ∑ k : Fin 10000, x2 (ix2 p k) * x0 (ix2 k q)) :
    (out0_A_3 (F := Ideal) c i arg1 harg1 arg2 harg2 arg3 harg3 arg4 harg4 arg5 harg5 hc0 x0 x1 x2 : S400x256.Idx → EReal) = G := by
  funext y
  unfold out0_A_3
  rw [View.read_writes_eq_canon _ _ _ (cover0_A_3 (F := Ideal) c i arg1 harg1 arg2 harg2 arg3 harg3 arg4 harg4 arg5 harg5 hc0 x0 x1 x2)]
  refine View.canon_apply_of_pieces G _ ?_ y (cover0_A_3 (F := Ideal) c i arg1 harg1 arg2 harg2 arg3 harg3 arg4 harg4 arg5 harg5 hc0 x0 x1 x2 y)
  unfold kernelRun0_A
  dsimp only
  sl_unfold_words
  intro pc hpc
  rcases List.mem_cons.mp hpc with rfl | hpc
  · intro x
    obtain ⟨a, b, rfl⟩ : ∃ (a : Fin 200) (b : Fin 256), x = ix2 a b := ⟨x 0, x 1, eq_ix2 (n0 := 200) (n1 := 256) x⟩
    simp only [View.readCov_unit_zero (S := S10000x256) _ hz, View.readAt_eq_ld, harg1.read_unread, harg2.read_unread, harg3.read_unread,
      View.ld_unit_zero (S := S10000x256) hz, View.ld_unit_zero (S := S200x10000) hz, Payload.pay1_eq]
    refine (Payload.pay3_apply _ _ a b).trans ?_
    rw [← h2 a b]
    refine congrArg G (funext fun d => Fin.ext ?_)
    match d with
    | ⟨0, _⟩ => show 200 + a.val = 200 + 1 * a.val; omega
    | ⟨1, _⟩ => show b.val = 0 + 1 * b.val; omega
  · rcases List.mem_singleton.mp hpc with rfl
    intro x
    obtain ⟨a, b, rfl⟩ : ∃ (a : Fin 200) (b : Fin 256), x = ix2 a b := ⟨x 0, x 1, eq_ix2 (n0 := 200) (n1 := 256) x⟩
    simp only [View.readCov_unit_zero (S := S10000x256) _ hz, View.readAt_eq_ld, harg1.read_unread, harg2.read_unread, harg3.read_unread,
      View.ld_unit_zero (S := S10000x256) hz, View.ld_unit_zero (S := S200x10000) hz, Payload.pay1_eq]
    refine (Payload.pay2_apply _ _ a b).trans ?_
    rw [← h1 a b]
    refine congrArg G (funext fun d => Fin.ext ?_)
    match d with
    | ⟨0, _⟩ => show a.val = 0 + 1 * a.val; omega
    | ⟨1, _⟩ => show b.val = 0 + 1 * b.val; omega

/-- A later point's two stores leave the same, computed from the scratch contents `xs0`. -/
theorem out_B_apply (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S400x256 .f32) (harg4 : arg4.IsWhole) (arg5 : Memref sig .tc .vmem S10000x256 .bf16) (harg5 : arg5.IsWhole) (hc0 : ¬cond0_0 i)
    (x0 : S10000x256.Idx → EReal) (x1 x2 : S200x10000.Idx → EReal) (xs0 : S10000x256.Idx → EReal) (G : S400x256.Idx → EReal)
    (h1 : ∀ (p : Fin 200) (q : Fin 256), G (ix2 ⟨p.val, by omega⟩ q) = ∑ k : Fin 10000, x1 (ix2 p k) * xs0 (ix2 k q))
    (h2 : ∀ (p : Fin 200) (q : Fin 256), G (ix2 ⟨200 + p.val, by omega⟩ q) = ∑ k : Fin 10000, x2 (ix2 p k) * xs0 (ix2 k q)) :
    (out0_B_3 (F := Ideal) c i arg1 harg1 arg2 harg2 arg3 harg3 arg4 harg4 arg5 harg5 hc0 x0 x1 x2 xs0 : S400x256.Idx → EReal) = G := by
  funext y
  unfold out0_B_3
  rw [View.read_writes_eq_canon _ _ _ (cover0_B_3 (F := Ideal) c i arg1 harg1 arg2 harg2 arg3 harg3 arg4 harg4 arg5 harg5 hc0 x0 x1 x2 xs0)]
  refine View.canon_apply_of_pieces G _ ?_ y (cover0_B_3 (F := Ideal) c i arg1 harg1 arg2 harg2 arg3 harg3 arg4 harg4 arg5 harg5 hc0 x0 x1 x2 xs0 y)
  unfold kernelRun0_B
  dsimp only
  sl_unfold_words
  intro pc hpc
  rcases List.mem_cons.mp hpc with rfl | hpc
  · intro x
    obtain ⟨a, b, rfl⟩ : ∃ (a : Fin 200) (b : Fin 256), x = ix2 a b := ⟨x 0, x 1, eq_ix2 (n0 := 200) (n1 := 256) x⟩
    simp only [View.readCov_unit_zero (S := S10000x256) _ hz, View.readAt_eq_ld, harg1.read_unread, harg2.read_unread, harg3.read_unread, harg5.read_unread,
      View.ld_unit_zero (S := S10000x256) hz, View.ld_unit_zero (S := S200x10000) hz, Payload.pay1_eq]
    refine (Payload.pay3_apply _ _ a b).trans ?_
    rw [← h2 a b]
    refine congrArg G (funext fun d => Fin.ext ?_)
    match d with
    | ⟨0, _⟩ => show 200 + a.val = 200 + 1 * a.val; omega
    | ⟨1, _⟩ => show b.val = 0 + 1 * b.val; omega
  · rcases List.mem_singleton.mp hpc with rfl
    intro x
    obtain ⟨a, b, rfl⟩ : ∃ (a : Fin 200) (b : Fin 256), x = ix2 a b := ⟨x 0, x 1, eq_ix2 (n0 := 200) (n1 := 256) x⟩
    simp only [View.readCov_unit_zero (S := S10000x256) _ hz, View.readAt_eq_ld, harg1.read_unread, harg2.read_unread, harg3.read_unread, harg5.read_unread,
      View.ld_unit_zero (S := S10000x256) hz, View.ld_unit_zero (S := S200x10000) hz, Payload.pay1_eq]
    refine (Payload.pay2_apply _ _ a b).trans ?_
    rw [← h1 a b]
    refine congrArg G (funext fun d => Fin.ext ?_)
    match d with
    | ⟨0, _⟩ => show a.val = 0 + 1 * a.val; omega
    | ⟨1, _⟩ => show b.val = 0 + 1 * b.val; omega

/-! ## Point by point -/

/-- The scratch holds the feature matrix from the first point on. -/
theorem scr_apply (c : Dev nD) (k : Fin 10000) (q : Fin 256) : (scr m c : S10000x256.Idx → EReal) (ix2 k q) = Xa m c (ix2 k q) := by
  unfold scr scrA
  rw [sout_A]
  exact iblk0_apply m c t0 k q

/-- Rows 400t … 400t+399 of the product, as the output block of point t. -/
def rowsOf (c : Dev nD) (t : Fin cfg0.N) : S400x256.Idx → EReal := fun y =>
  Spec.prod (Xa m c) (Aa m c) (ix2 ⟨400 * t.val + (y 0).val, by have := t_lt t; have := idx2_lt0 y; omega⟩ (y 1))

/-- After point t the output buffer holds rows 400t … 400t+399 of the product. -/
theorem outAt_eq (c : Dev nD) (t : Fin cfg0.N) : (outAt m c t : S400x256.Idx → EReal) = rowsOf m c t := by
  have ht := t_lt t
  by_cases hzt : t.val = 0
  · rw [outAt_zero m c t hzt]
    unfold outA
    refine out_A_apply _ _ _ _ _ _ _ _ _ _ _ _ _ _ _ _ _ (fun p q => ?_) (fun p q => ?_)
    · show Spec.prod (Xa m c) (Aa m c) (ix2 ⟨400 * t.val + p.val, _⟩ q) = _
      rw [Spec.prod_apply]
      exact Finset.sum_congr rfl fun k _ => by rw [iblk1_apply m c t p k (by omega), iblk0_apply]
    · show Spec.prod (Xa m c) (Aa m c) (ix2 ⟨400 * t.val + (200 + p.val), _⟩ q) = _
      rw [Spec.prod_apply]
      exact Finset.sum_congr rfl fun k _ => by rw [iblk2_apply m c t p k (by omega), iblk0_apply]
  · rw [outAt_pos m c t hzt]
    unfold outB
    refine out_B_apply _ _ _ _ _ _ _ _ _ _ _ _ _ _ _ _ _ _ (fun p q => ?_) (fun p q => ?_)
    · show Spec.prod (Xa m c) (Aa m c) (ix2 ⟨400 * t.val + p.val, _⟩ q) = _
      rw [Spec.prod_apply]
      exact Finset.sum_congr rfl fun k _ => by rw [iblk1_apply m c t p k (by omega), scr_apply]
    · show Spec.prod (Xa m c) (Aa m c) (ix2 ⟨400 * t.val + (200 + p.val), _⟩ q) = _
      rw [Spec.prod_apply]
      exact Finset.sum_congr rfl fun k _ => by rw [iblk2_apply m c t p k (by omega), scr_apply]

/-! ## From blocks to the array -/

/-- What point t writes back is block t of the product. -/
theorem flushed_eq (c : Dev nD) (t : Fin cfg0.N) :
    (dats m 0 c).flushed 3 t = ((cfg0.win 3).blk t).view.read (Elt Ideal) (Spec.prod (Xa m c) (Aa m c)) := by
  show (cfg0.win 3).cut (grid0.coords t) ((dats m 0 c).after 3 t) = _
  rw [after0_3]
  obtain ⟨-, -, -, -, -, -, e0, e1⟩ := idx_facts t
  funext j
  show outAt m c t j = Spec.prod (Xa m c) (Aa m c) (((cfg0.win 3).blk t).view.emb j)
  rw [outAt_eq]
  unfold rowsOf
  refine congrArg (Spec.prod (Xa m c) (Aa m c)) (funext fun a => Fin.ext ?_)
  match a with
  | ⟨0, _⟩ => show 400 * t.val + (j 0).val = win0_3.index t (0 : Fin 2) * 400 + 1 * (j 0).val; omega
  | ⟨1, _⟩ => show (j 1).val = win0_3.index t (1 : Fin 2) * 256 + 1 * (j 1).val; omega

/-- An index of the result array is in point t's block iff each coordinate is in the block's range on its axis. -/
theorem mem_blk (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v0).slice (win0_3.rect t)).set ↔ _
  rw [View.set_slice_whole, Rect.mem_set_unit]
  exact Iff.rfl

/-- The result array after the run is the product: row r lies in the block of point r / 400. -/
theorem final (c : Dev nD) : (dats m 0 c).arrAt 3 cfg0.N = Spec.prod (Xa m c) (Aa m c) :=
  (dats m 0 c).arrAt_eq_of_cover 3 (Spec.prod (Xa m c) (Aa m c)) (fun t _ => flushed_eq m c t) fun i => by
    have hi0 : (i 0).val < 10000 := idx2_lt0 i
    have hi1 : (i 1).val < 256 := idx2_lt1 i
    refine ⟨⟨(i 0).val / 400, by rw [show cfg0.N = 25 from N_0]; omega⟩, flush0_3 _, ?_⟩
    rw [mem_blk]
    obtain ⟨-, -, -, -, -, -, e0, e1⟩ := idx_facts ⟨(i 0).val / 400, by rw [show cfg0.N = 25 from N_0]; omega⟩
    intro a
    match a with
    | ⟨0, _⟩ => show win0_3.index _ (0 : Fin 2) * 400 ≤ (i 0).val ∧ (i 0).val < win0_3.index _ (0 : Fin 2) * 400 + 400; rw [e0]; dsimp only; omega
    | ⟨1, _⟩ => show win0_3.index _ (1 : Fin 2) * 256 ≤ (i 1).val ∧ (i 1).val < win0_3.index _ (1 : Fin 2) * 256 + 256; rw [e1]; omega

end Cert.KernelIdeal.HandValue

end
-- ==== Proof.lean ====
/- The proof of `Cert.Claim`: a dense neighbour aggregation  A · X  (A the 10000×10000 adjacency matrix, X the 10000×256
   feature matrix) computed by a pipelined kernel, against the plain matrix product.

   The kernel walks 25 grid points; at point t it multiplies rows 400t … 400t+199 and rows 400t+200 … 400t+399 of A —
   two windows on the one array A — by a bf16 copy of X that its first point makes in a scratch buffer, and writes the
   400 resulting rows as block t of the result. Over the extended reals a change of float format is the identity and a
   matrix unit's product into a zero accumulator is the plain sum  Σ_k A(r, k) · X(k, q), so every block is the matching
   block of  A · X  and the 25 blocks tile the result: the kernel's array ends at  A · X  (Proof/KIValue.lean over the
   frame run of Proof/KIFrame/), which is what the reference's one `dot_general` computes (Proof/Spec.lean). No algebraic
   law beyond reading both sides as the same sum is needed, so finiteness of the inputs is never used.
   The frames: both kernel programs run to the end and leave X and A as they were (Proof/KIFrame/Run.lean and its copy
   for the word-level program, Proof/KFrame/Run.lean); the reference's frame is its run with the result dropped. The
   idealization rewrote nothing, so `preserves` has nothing to state. -/
import proofs.«115988_g532575945055_cont_9to1_m_783_6_alg».proof.Defs
import proofs.«115988_g532575945055_cont_9to1_m_783_6_alg».proof.Proof.Gen.Kernel
import proofs.«115988_g532575945055_cont_9to1_m_783_6_alg».proof.Proof.Gen.KernelIdeal
import proofs.«115988_g532575945055_cont_9to1_m_783_6_alg».proof.Proof.Gen.ReferenceIdeal
import proofs.«115988_g532575945055_cont_9to1_m_783_6_alg».proof.Proof.Gen.Pre_finite_inputs
import proofs.«115988_g532575945055_cont_9to1_m_783_6_alg».proof.Proof.Gen.ReferenceIdeal.Run
import proofs.«115988_g532575945055_cont_9to1_m_783_6_alg».proof.Proof.Gen.ReferenceIdeal.Read
import proofs.«115988_g532575945055_cont_9to1_m_783_6_alg».proof.Proof.KFrame.Run
import proofs.«115988_g532575945055_cont_9to1_m_783_6_alg».proof.Proof.KIFrame.Run
import proofs.«115988_g532575945055_cont_9to1_m_783_6_alg».proof.Proof.KIValue
import proofs.«115988_g532575945055_cont_9to1_m_783_6_alg».proof.Proof.Spec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run, read: the result array at the product of the argument arrays, the arguments unchanged. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = Cert.Spec.prod (Cert.KernelIdeal.HandValue.Xa m c) (Cert.KernelIdeal.HandValue.Aa m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨(h c 3).trans (Cert.KernelIdeal.HandValue.final m c),
     (h c 0).trans (((Cert.KernelIdeal.Hand.dats m 0 c).arrAt_in 0 rfl _).trans (Cert.KernelIdeal.Hand.A_eq m c 0)),
     (h c 1).trans (((Cert.KernelIdeal.Hand.dats m 0 c).arrAt_in 1 rfl _).trans (Cert.KernelIdeal.Hand.A_eq m c 1))⟩)
    (Cert.KernelIdeal.Hand.run_main (F := Ideal) m ρ)

/-- Both idealized programs, from memories agreeing on the arguments, end with the result at the one product. -/
theorem algebraic : Cert.algebraic_KernelIdeal_ReferenceIdeal := by
  intro m ρ m' ρ' _ hagree
  refine ⟨fun c => Cert.Spec.prod (Cert.KernelIdeal.HandValue.Xa m c) (Cert.KernelIdeal.HandValue.Aa m c), kernel_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v0_eq, Cert.Spec.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
